-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S1048576 : Shape := ⟨1, ![1048576]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_v13 : IVec S_ 1) (main_v16 : IVec S1048576 1) : IVec S_ 1 :=
  let main_c_5 : IVec S_ 1 := constantI S_ 1 1#1
  let main_v17 : IVec S_ 1 := (fun x v => Host.reduce IntOp.andi x v reducesTo_S1048576_S_d0 h_S_) main_v16 main_c_5
  let main_v18 : IVec S_ 1 := andi main_v13 main_v17
  main_v18

def fn {F : FTy → Type} [FloatOps F] (main_arg0 : FVec F S65536x64 .f32) (main_arg1 : FVec F S65536x64 .f32) (main_arg2 : IVec S1048576 32) (main_arg3 : IVec S1048576 32) (main_arg4 : FVec F S1048576 .f32) (main_arg5 : IVec S1048576 32) (main_arg6 : IVec S1048576 32) (main_arg7 : FVec F S1048576 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S1048576 .f32 := Host.absf main_arg4
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  let main_v14 : FVec F S1048576 .f32 := Host.absf main_arg7
  let main_cst_4 : FVec F S_ .f32 := constant S_ .f32 0x7F800000#32
  let main_v15 : FVec F S1048576 .f32 := broadcastInDim S1048576 ![] bcast_S_S1048576 main_cst_4
  let main_v16 : IVec S1048576 1 := cmpf .olt main_v14 main_v15
  fn_part1 (F := F) main_v13 main_v16
-- ==== Kernel.lean ====
abbrev S65536x64 : Shape := ⟨2, ![65536, 64]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S1x1048576x64 : Shape := ⟨3, ![1, 1048576, 64]⟩
abbrev S2x1048576x64 : Shape := ⟨3, ![2, 1048576, 64]⟩
abbrev S1x1048576 : Shape := ⟨2, ![1, 1048576]⟩
abbrev S2x1048576 : Shape := ⟨2, ![2, 1048576]⟩
abbrev S2x1048576x1 : Shape := ⟨3, ![2, 1048576, 1]⟩
abbrev S1x8192x64 : Shape := ⟨3, ![1, 8192, 64]⟩
abbrev S1x8192x1 : Shape := ⟨3, ![1, 8192, 1]⟩
abbrev S8192x64 : Shape := ⟨2, ![8192, 64]⟩
abbrev S8192x1 : Shape := ⟨2, ![8192, 1]⟩

abbrev nBuf : Space → Nat
  | .hbm => 46
  | .vmem => 6
  | .smem => 0
  | _ => 0

abbrev bufTy : (tb : Table) → Fin (tcTables nBuf tb) → BufTy
  | .hbm, ⟨0, _⟩ => ⟨S65536x64, .f32⟩
  | .hbm, ⟨1, _⟩ => ⟨S65536x64, .f32⟩
  | .hbm, ⟨2, _⟩ => ⟨S1048576, .i32⟩
  | .hbm, ⟨3, _⟩ => ⟨S1048576, .i32⟩
  | .hbm, ⟨4, _⟩ => ⟨S1048576, .f32⟩
  | .hbm, ⟨5, _⟩ => ⟨S1048576, .i32⟩
  | .hbm, ⟨6, _⟩ => ⟨S1048576, .i32⟩
  | .hbm, ⟨7, _⟩ => ⟨S1048576, .f32⟩
  | .hbm, ⟨8, _⟩ => ⟨S_, .i32⟩
  | .hbm, ⟨9, _⟩ => ⟨S1048576, .i32⟩
  | .hbm, ⟨10, _⟩ => ⟨S1048576, .i1⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S1048576, .i32⟩
  | .hbm, ⟨15, _⟩ => ⟨S1048576x1, .i32⟩
  | .hbm, ⟨16, _⟩ => ⟨S1048576x64, .f32⟩
  | .hbm, ⟨17, _⟩ => ⟨S_, .i32⟩
  | .hbm, ⟨18, _⟩ => ⟨S1048576, .i32⟩
  | .hbm, ⟨19, _⟩ => ⟨S1048576, .i1⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S1048576, .i32⟩
  | .hbm, ⟨24, _⟩ => ⟨S1048576x1, .i32⟩
  | .hbm, ⟨25, _⟩ => ⟨S1048576x64, .f32⟩
  | .hbm, ⟨26, _⟩ => ⟨S1x1048576x64, .f32⟩
  | .hbm, ⟨27, _⟩ => ⟨S1x1048576x64, .f32⟩
  | .hbm, ⟨28, _⟩ => ⟨S2x1048576x64, .f32⟩
  | .hbm, ⟨29, _⟩ => ⟨S1x1048576, .f32⟩
  | .hbm, ⟨30, _⟩ => ⟨S1x1048576, .f32⟩
  | .hbm, ⟨31, _⟩ => ⟨S2x1048576, .f32⟩
  | .hbm, ⟨32, _⟩ => ⟨S2x1048576x1, .f32⟩
  | .hbm, ⟨33, _⟩ => ⟨S2x1048576x64, .f32⟩
  | .hbm, ⟨34, _⟩ => ⟨S1x1048576x64, .f32⟩
  | .hbm, ⟨35, _⟩ => ⟨S1048576x64, .f32⟩
  | .hbm, ⟨36, _⟩ => ⟨S_, .f32⟩
  | .hbm, ⟨37, _⟩ => ⟨S65536x64, .f32⟩
  | .hbm, ⟨38, _⟩ => ⟨S1048576x1, .i32⟩
  | .hbm, ⟨39, _⟩ => ⟨S65536x64, .f32⟩
  | .hbm, ⟨40, _⟩ => ⟨S1x1048576x64, .f32⟩
  | .hbm, ⟨41, _⟩ => ⟨S1048576x64, .f32⟩
  | .hbm, ⟨42, _⟩ => ⟨S_, .f32⟩
  | .hbm, ⟨43, _⟩ => ⟨S65536x64, .f32⟩
  | .hbm, ⟨44, _⟩ => ⟨S1048576x1, .i32⟩
  | .hbm, ⟨45, _⟩ => ⟨S65536x64, .f32⟩
  | .local _ .vmem, ⟨0, _⟩ => ⟨S1x8192x64, .f32⟩
  | .local _ .vmem, ⟨1, _⟩ => ⟨S1x8192x64, .f32⟩
  | .local _ .vmem, ⟨2, _⟩ => ⟨S1x8192x1, .f32⟩
  | .local _ .vmem, ⟨3, _⟩ => ⟨S1x8192x1, .f32⟩
  | .local _ .vmem, ⟨4, _⟩ => ⟨S1x8192x64, .f32⟩
  | .local _ .vmem, ⟨5, _⟩ => ⟨S1x8192x64, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x64_S1x1048576x64_1_2 : S1048576x64.BroadcastsInDim S1x1048576x64 (![1, 2] : Fin 2 → Fin S1x1048576x64.rank)
  concatenates_S1x1048576x64_S1x1048576x64_S2x1048576x64_d0 : Shape.Concatenates [S1x1048576x64, S1x1048576x64] S2x1048576x64 0
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  bcast_S2x1048576_S2x1048576x1_0_1 : S2x1048576.BroadcastsInDim S2x1048576x1 (![0, 1] : Fin 2 → Fin S2x1048576x1.rank)
  inb_S1x8192x64_S1x8192x64_0_0_0 : ∀ a, (![0, 0, 0] : Fin 3 → Nat) a + S1x8192x64.size a ≤ S1x8192x64.size a
  h_S1x8192x64 : 0 < S1x8192x64.numel
  shapeCasts_S1x8192x64_S8192x64 : S1x8192x64.ShapeCasts S8192x64
  inb_S1x8192x1_S1x8192x1_0_0_0 : ∀ a, (![0, 0, 0] : Fin 3 → Nat) a + S1x8192x1.size a ≤ S1x8192x1.size a
  h_S1x8192x1 : 0 < S1x8192x1.numel
  shapeCasts_S1x8192x1_S8192x1 : S1x8192x1.ShapeCasts S8192x1
  broadcasts_S8192x1_S8192x64 : S8192x1.Broadcasts S8192x64
  shapeCasts_S8192x64_S1x8192x64 : S8192x64.ShapeCasts S1x8192x64
  slices_S2x1048576x64_S1x1048576x64_0_0_0 : S2x1048576x64.Slices ![0, 0, 0] S1x1048576x64
  shapeCasts_S1x1048576x64_S1048576x64 : S1x1048576x64.ShapeCasts S1048576x64
  bcast_S_S65536x64 : S_.BroadcastsInDim S65536x64 (![] : Fin 0 → Fin S65536x64.rank)
  slices_S2x1048576x64_S1x1048576x64_1_0_0 : S2x1048576x64.Slices ![1, 0, 0] S1x1048576x64
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x64.size a ≤ S2x1048576x64.size a
  hwx0_0 : ∀ i : grid0.Coords, EltTy.bits .f32 = 32 ∨ (Rect.block (s := S2x1048576x64) S1x8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x1.size a ≤ S2x1048576x1.size a
  hwx0_1 : ∀ i : grid0.Coords, EltTy.bits .f32 = 32 ∨ (Rect.block (s := S2x1048576x1) S1x8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8192x64.size a ≤ S2x1048576x64.size a
  hwx0_2 : ∀ i : grid0.Coords, EltTy.bits .f32 = 32 ∨ (Rect.block (s := S2x1048576x64) S1x8192x64.size (cc0_transform_2 i) (hinb0_2 i)).WholeWords (EltTy.packing .f32)

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf

abbrev win0_0 : Pipeline.Window sig grid0 :=
  Pipeline.Window.ofSpec (Memref.whole main_v16) S1x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x64 : Shape := ⟨2, ![65536, 64]⟩
abbrev S1048576 : Shape := ⟨1, ![1048576]⟩
abbrev S1048576x1 : Shape := ⟨2, ![1048576, 1]⟩
abbrev S_ : Shape := ⟨0, ![]⟩
abbrev S1048576x64 : Shape := ⟨2, ![1048576, 64]⟩

abbrev nBuf : Space → Nat
  | .hbm => 40
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536x64, .f32⟩
  | .hbm, ⟨2, _⟩ => ⟨S1048576, .i32⟩
  | .hbm, ⟨3, _⟩ => ⟨S1048576, .i32⟩
  | .hbm, ⟨4, _⟩ => ⟨S1048576, .f32⟩
  | .hbm, ⟨5, _⟩ => ⟨S1048576, .i32⟩
  | .hbm, ⟨6, _⟩ => ⟨S1048576, .i32⟩
  | .hbm, ⟨7, _⟩ => ⟨S1048576, .f32⟩
  | .hbm, ⟨8, _⟩ => ⟨S1048576x1, .f32⟩
  | .hbm, ⟨9, _⟩ => ⟨S_, .i32⟩
  | .hbm, ⟨10, _⟩ => ⟨S1048576, .i32⟩
  | .hbm, ⟨11, _⟩ => ⟨S1048576, .i1⟩
  | .hbm, ⟨12, _⟩ => ⟨S_, .i32⟩
  | .hbm, ⟨13, _⟩ => ⟨S1048576, .i32⟩
  | .hbm, ⟨14, _⟩ => ⟨S1048576, .i32⟩
  | .hbm, ⟨15, _⟩ => ⟨S1048576, .i32⟩
  | .hbm, ⟨16, _⟩ => ⟨S1048576x1, .i32⟩
  | .hbm, ⟨17, _⟩ => ⟨S1048576x64, .f32⟩
  | .hbm, ⟨18, _⟩ => ⟨S1048576x64, .f32⟩
  | .hbm, ⟨19, _⟩ => ⟨S1048576x64, .f32⟩
  | .hbm, ⟨20, _⟩ => ⟨S_, .f32⟩
  | .hbm, ⟨21, _⟩ => ⟨S65536x64, .f32⟩
  | .hbm, ⟨22, _⟩ => ⟨S1048576x1, .i32⟩
  | .hbm, ⟨23, _⟩ => ⟨S65536x64, .f32⟩
  | .hbm, ⟨24, _⟩ => ⟨S1048576x1, .f32⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S1048576x64, .f32⟩
  | .hbm, ⟨34, _⟩ => ⟨S1048576x64, .f32⟩
  | .hbm, ⟨35, _⟩ => ⟨S1048576x64, .f32⟩
  | .hbm, ⟨36, _⟩ => ⟨S_, .f32⟩
  | .hbm, ⟨37, _⟩ => ⟨S65536x64, .f32⟩
  | .hbm, ⟨38, _⟩ => ⟨S1048576x1, .i32⟩
  | .hbm, ⟨39, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1

variable [Facts₀]

def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf

class Facts : Prop extends Facts₀ where

variable [Facts]
-- ==== Proof.EdgeScale.lean ====
/-
  The edge-scaling step of a two-relation sparse product, as plain mathematics over index functions (no program is
  imported here).

  Each relation has 1,048,576 edges; edge e carries a weight w(e) and a gathered feature row g(e, ·) of 64 entries.
  The scaled rows are  s(e, d) = g(e, d) · w(e).  One side of the comparison stacks the two relations' rows into a
  [2, E, 64] array and their weights into a [2, E, 1] column, multiplies tile by tile (a tile is 8192 edges of one
  relation; inside it the column is broadcast along the 64 features), and cuts relation r back out of the product.
  The other side multiplies each relation by itself, the weight column broadcast to the rows' shape and written as
  the LEFT factor.  Three facts are proved:

  * tile_apply      — what one tile's product holds at an index: rows(0, p, q) · weights(0, p, 0);
  * the layout chain read at an index (stack, column, cut, drop of the unit axis), relation 0 and relation 1;
  * rel0_eq / rel1_eq — the cut-out relation IS  w ⊙ g  with the factors in the other order.  The only law used is
    commutativity of the product of extended reals, which holds at the infinities too: nothing here needs finiteness.
-/
import Idealize.ShloMosaic.PureOps.Ideal
import Idealize.ShloMosaic.Lib.ValueIdx
import Idealize.ShloMosaic.Lib.ValueLayout
import Idealize.ShloMosaic.Lib.Pipeline.Value

noncomputable section

namespace Cert.EdgeScale

open Idealize.ShloMosaic Idealize.ShloMosaic.ValueIdx

/-! ## Shapes (literal, so that coordinates compute) -/

abbrev SEdge : Shape := ⟨1, ![1048576]⟩
abbrev SEdgeCol : Shape := ⟨2, ![1048576, 1]⟩
abbrev SRows : Shape := ⟨2, ![1048576, 64]⟩
abbrev SOneRows : Shape := ⟨3, ![1, 1048576, 64]⟩
abbrev STwoRows : Shape := ⟨3, ![2, 1048576, 64]⟩
abbrev SOneEdge : Shape := ⟨2, ![1, 1048576]⟩
abbrev STwoEdge : Shape := ⟨2, ![2, 1048576]⟩
abbrev STwoCol : Shape := ⟨3, ![2, 1048576, 1]⟩
abbrev STile3 : Shape := ⟨3, ![1, 8192, 64]⟩
abbrev STileCol3 : Shape := ⟨3, ![1, 8192, 1]⟩
abbrev STile : Shape := ⟨2, ![8192, 64]⟩
abbrev STileCol : Shape := ⟨2, ![8192, 1]⟩

/-! ## The product of the stacked arrays, and one tile of it -/

section AnyFloat
variable {F : FTy → Type} [FloatOps F]

/-- The stacked product: entry (r, e, d) is the stacked rows' entry times the stacked column's entry (r, e, 0). -/
def scaled (rows : STwoRows.Idx → F .f32) (col : STwoCol.Idx → F .f32) : STwoRows.Idx → F .f32 :=
  fun i => FloatOps.mulf (rows i) (col (ix3 (i 0) (i 1) (0 : Fin 1)))

theorem scaled_apply (rows : STwoRows.Idx → F .f32) (col : STwoCol.Idx → F .f32) (r : Fin 2) (e : Fin 1048576) (d : Fin 64) :
    scaled rows col (ix3 r e d) = FloatOps.mulf (rows (ix3 r e d)) (col (ix3 r e (0 : Fin 1))) := rfl

/-- A [8192, 1] column broadcast along the features reads, at (p, q), the column's entry p. -/
theorem col_broadcast_apply (v : STileCol.Idx → F .f32) (h : STileCol.Broadcasts STile) (p : Fin 8192) (q : Fin 64) :
    broadcastTo STile v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- One tile: the rows' block with its unit axis dropped, times the column's block (unit axis dropped, broadcast
    along the features), the unit axis put back — at (u, p, q) it is rows(0, p, q) · column(0, p, 0). -/
theorem tile_apply (x0 : STile3.Idx → F .f32) (x1 : STileCol3.Idx → F .f32)
    (h1 : STile3.ShapeCasts STile) (h2 : STileCol3.ShapeCasts STileCol) (h3 : STileCol.Broadcasts STile)
    (h4 : STile.ShapeCasts STile3) (u : Fin 1) (p : Fin 8192) (q : Fin 64) :
    shapeCast STile3 (mulf (shapeCast STile x0 h1) (broadcastTo STile (shapeCast STileCol x1 h2) h3)) h4 (ix3 u p q)
      = FloatOps.mulf (x0 (ix3 (0 : Fin 1) p q)) (x1 (ix3 (0 : Fin 1) p (0 : Fin 1))) := by
  rw [shapeCast_ab_1ab_apply]
  show FloatOps.mulf (shapeCast STile x0 h1 (ix2 p q)) (broadcastTo STile (shapeCast STileCol x1 h2) h3 (ix2 p q)) = _
  rw [shapeCast_1ab_ab_apply, col_broadcast_apply, shapeCast_1ab_ab_apply]

end AnyFloat

/-! ## The layout chain read at an index -/

section Layout
variable {α : Type}

/-- A per-edge vector made a column, then spread over the 64 features, reads the edge's entry. -/
theorem spread_apply (w : SEdge.Idx → α) (hc : SEdge.BroadcastsInDim SEdgeCol ![0]) (hs : SEdgeCol.BroadcastsInDim SRows ![0, 1])
    (e : Fin 1048576) (d : Fin 64) :
    broadcastInDim SRows ![0, 1] hs (broadcastInDim SEdgeCol ![0] hc w) (ix2 e d) = w (ix1 e) := by
  rw [broadcastInDim_apply ![0, 1] hs _ (ix2 e d) (ix2 e (0 : Fin 1)) (fun a => by
        match a with
        | ⟨0, _⟩ => rfl
        | ⟨1, _⟩ => rfl),
    broadcastInDim_apply ![0] hc w (ix2 e (0 : Fin 1)) (ix1 e) (fun a => by
        match a with
        | ⟨0, _⟩ => rfl)]

/-- Rows given a leading unit axis read the same entry. -/
theorem lead_rows_apply (g : SRows.Idx → α) (h : SRows.BroadcastsInDim SOneRows ![1, 2]) (u : Fin 1) (e : Fin 1048576) (d : Fin 64) :
    broadcastInDim SOneRows ![1, 2] h g (ix3 u e d) = g (ix2 e d) :=
  broadcastInDim_apply ![1, 2] h g (ix3 u e d) (ix2 e d) (fun a => by
    match a with
    | ⟨0, _⟩ => rfl
    | ⟨1, _⟩ => rfl)

/-- A per-edge vector given a leading unit axis reads the same entry. -/
theorem lead_edge_apply (w : SEdge.Idx → α) (h : SEdge.BroadcastsInDim SOneEdge ![1]) (u : Fin 1) (e : Fin 1048576) :
    broadcastInDim SOneEdge ![1] h w (ix2 u e) = w (ix1 e) :=
  broadcastInDim_apply ![1] h w (ix2 u e) (ix1 e) (fun a => by
    match a with
    | ⟨0, _⟩ => rfl)

/-- The stacked weights made a column read, at (r, e, 0), the stack's entry (r, e). -/
theorem stack_col_apply (s : STwoEdge.Idx → α) (h : STwoEdge.BroadcastsInDim STwoCol ![0, 1]) (r : Fin 2) (e : Fin 1048576) (z : Fin 1) :
    broadcastInDim STwoCol ![0, 1] h s (ix3 r e z) = s (ix2 r e) :=
  broadcastInDim_apply ![0, 1] h s (ix3 r e z) (ix2 r e) (fun a => by
    match a with
    | ⟨0, _⟩ => rfl
    | ⟨1, _⟩ => rfl)

/-- The stack of two row arrays along the new leading axis: slot 0 is the first. -/
theorem stack_rows_zero (a b : SOneRows.Idx → α) (h : Shape.Concatenates [SOneRows, SOneRows] STwoRows 0) (e : Fin 1048576) (d : Fin 64) :
    concatenate STwoRows 0 [⟨SOneRows, a⟩, ⟨SOneRows, b⟩] h (ix3 (0 : Fin 2) e d) = a (ix3 (0 : Fin 1) e d) :=
  concatenate_pair_apply_left (0 : Fin 3) a b h (ix3 (0 : Fin 2) e d) rfl (ix3 (0 : Fin 1) e d) (fun c => by
    match c with
    | ⟨0, _⟩ => rfl
    | ⟨1, _⟩ => rfl
    | ⟨2, _⟩ => rfl)

/-- and slot 1 is the second. -/
theorem stack_rows_one (a b : SOneRows.Idx → α) (h : Shape.Concatenates [SOneRows, SOneRows] STwoRows 0) (e : Fin 1048576) (d : Fin 64) :
    concatenate STwoRows 0 [⟨SOneRows, a⟩, ⟨SOneRows, b⟩] h (ix3 (1 : Fin 2) e d) = b (ix3 (0 : Fin 1) e d) :=
  concatenate_pair_apply_right (0 : Fin 3) a b h (ix3 (1 : Fin 2) e d) rfl rfl (ix3 (0 : Fin 1) e d) (fun c hc => by
    match c with
    | ⟨0, _⟩ => exact absurd rfl hc
    | ⟨1, _⟩ => rfl
    | ⟨2, _⟩ => rfl) rfl

/-- The stack of two weight vectors: slot 0 is the first, -/
theorem stack_edge_zero (a b : SOneEdge.Idx → α) (h : Shape.Concatenates [SOneEdge, SOneEdge] STwoEdge 0) (e : Fin 1048576) :
    concatenate STwoEdge 0 [⟨SOneEdge, a⟩, ⟨SOneEdge, b⟩] h (ix2 (0 : Fin 2) e) = a (ix2 (0 : Fin 1) e) :=
  concatenate_pair_apply_left (0 : Fin 2) a b h (ix2 (0 : Fin 2) e) rfl (ix2 (0 : Fin 1) e) (fun c => by
    match c with
    | ⟨0, _⟩ => rfl
    | ⟨1, _⟩ => rfl)

/-- slot 1 the second. -/
theorem stack_edge_one (a b : SOneEdge.Idx → α) (h : Shape.Concatenates [SOneEdge, SOneEdge] STwoEdge 0) (e : Fin 1048576) :
    concatenate STwoEdge 0 [⟨SOneEdge, a⟩, ⟨SOneEdge, b⟩] h (ix2 (1 : Fin 2) e) = b (ix2 (0 : Fin 1) e) :=
  concatenate_pair_apply_right (0 : Fin 2) a b h (ix2 (1 : Fin 2) e) rfl rfl (ix2 (0 : Fin 1) e) (fun c hc => by
    match c with
    | ⟨0, _⟩ => exact absurd rfl hc
    | ⟨1, _⟩ => rfl) rfl

/-- Relation 0 cut out of a [2, E, 64] array and its unit axis dropped reads, at (e, d), the array's entry (0, e, d). -/
theorem cut0_apply (X : STwoRows.Idx → α) (hs : STwoRows.Slices ![0, 0, 0] SOneRows) (hc : SOneRows.ShapeCasts SRows)
    (e : Fin 1048576) (d : Fin 64) :
    shapeCast SRows (extractStridedSlice SOneRows ![0, 0, 0] X hs) hc (ix2 e d) = X (ix3 (0 : Fin 2) e d) := by
  rw [shapeCast_1ab_ab_apply]
  refine extractStridedSlice_apply ![0, 0, 0] X hs (ix3 (0 : Fin 1) e d) (ix3 (0 : Fin 2) e d) fun a => ?_
  match a with
  | ⟨0, _⟩ => rfl
  | ⟨1, _⟩ => show e.val = 0 + e.val; omega
  | ⟨2, _⟩ => show d.val = 0 + d.val; omega

/-- Relation 1 likewise: the cut starts one slot along the leading axis. -/
theorem cut1_apply (X : STwoRows.Idx → α) (hs : STwoRows.Slices ![1, 0, 0] SOneRows) (hc : SOneRows.ShapeCasts SRows)
    (e : Fin 1048576) (d : Fin 64) :
    shapeCast SRows (extractStridedSlice SOneRows ![1, 0, 0] X hs) hc (ix2 e d) = X (ix3 (1 : Fin 2) e d) := by
  rw [shapeCast_1ab_ab_apply]
  refine extractStridedSlice_apply ![1, 0, 0] X hs (ix3 (0 : Fin 1) e d) (ix3 (1 : Fin 2) e d) fun a => ?_
  match a with
  | ⟨0, _⟩ => rfl
  | ⟨1, _⟩ => show e.val = 0 + e.val; omega
  | ⟨2, _⟩ => show d.val = 0 + d.val; omega

end Layout

/-! ## The two sides are one array -/

section Join
open Idealize.ShloMosaic.Ideal

/-- Relation 0: cut out of the stacked product, it is the weight column (spread over the features) times the rows,
    entry by entry — g(e, d) · w(e) = w(e) · g(e, d) on the extended reals. -/
theorem rel0_eq (g0 g1 : FVec Ideal SRows .f32) (w0 w1 : FVec Ideal SEdge .f32)
    (hlr : SRows.BroadcastsInDim SOneRows ![1, 2]) (hcr : Shape.Concatenates [SOneRows, SOneRows] STwoRows 0)
    (hle : SEdge.BroadcastsInDim SOneEdge ![1]) (hce : Shape.Concatenates [SOneEdge, SOneEdge] STwoEdge 0)
    (hcol : STwoEdge.BroadcastsInDim STwoCol ![0, 1])
    (hs : STwoRows.Slices ![0, 0, 0] SOneRows) (hc : SOneRows.ShapeCasts SRows)
    (hec : SEdge.BroadcastsInDim SEdgeCol ![0]) (hsp : SEdgeCol.BroadcastsInDim SRows ![0, 1]) :
    shapeCast SRows (extractStridedSlice SOneRows ![0, 0, 0]
        (scaled (F := Ideal)
          (concatenate STwoRows 0 [⟨SOneRows, broadcastInDim SOneRows ![1, 2] hlr g0⟩, ⟨SOneRows, broadcastInDim SOneRows ![1, 2] hlr g1⟩] hcr)
          (broadcastInDim STwoCol ![0, 1] hcol
            (concatenate STwoEdge 0 [⟨SOneEdge, broadcastInDim SOneEdge ![1] hle w0⟩, ⟨SOneEdge, broadcastInDim SOneEdge ![1] hle w1⟩] hce)))
        hs) hc
      = mulf (broadcastInDim SRows ![0, 1] hsp (broadcastInDim SEdgeCol ![0] hec w0)) g0 := by
  funext j
  obtain ⟨e, d, rfl⟩ : ∃ (e : Fin 1048576) (d : Fin 64), j = ix2 e d := ⟨j 0, j 1, eq_ix2 j⟩
  rw [cut0_apply _ hs hc e d, scaled_apply, stack_rows_zero, lead_rows_apply, stack_col_apply, stack_edge_zero,
    lead_edge_apply, mulf_apply, spread_apply]
  exact mul_comm _ _

/-- Relation 1, the same way. -/
theorem rel1_eq (g0 g1 : FVec Ideal SRows .f32) (w0 w1 : FVec Ideal SEdge .f32)
    (hlr : SRows.BroadcastsInDim SOneRows ![1, 2]) (hcr : Shape.Concatenates [SOneRows, SOneRows] STwoRows 0)
    (hle : SEdge.BroadcastsInDim SOneEdge ![1]) (hce : Shape.Concatenates [SOneEdge, SOneEdge] STwoEdge 0)
    (hcol : STwoEdge.BroadcastsInDim STwoCol ![0, 1])
    (hs : STwoRows.Slices ![1, 0, 0] SOneRows) (hc : SOneRows.ShapeCasts SRows)
    (hec : SEdge.BroadcastsInDim SEdgeCol ![0]) (hsp : SEdgeCol.BroadcastsInDim SRows ![0, 1]) :
    shapeCast SRows (extractStridedSlice SOneRows ![1, 0, 0]
        (scaled (F := Ideal)
          (concatenate STwoRows 0 [⟨SOneRows, broadcastInDim SOneRows ![1, 2] hlr g0⟩, ⟨SOneRows, broadcastInDim SOneRows ![1, 2] hlr g1⟩] hcr)
          (broadcastInDim STwoCol ![0, 1] hcol
            (concatenate STwoEdge 0 [⟨SOneEdge, broadcastInDim SOneEdge ![1] hle w0⟩, ⟨SOneEdge, broadcastInDim SOneEdge ![1] hle w1⟩] hce)))
        hs) hc
      = mulf (broadcastInDim SRows ![0, 1] hsp (broadcastInDim SEdgeCol ![0] hec w1)) g1 := by
  funext j
  obtain ⟨e, d, rfl⟩ : ∃ (e : Fin 1048576) (d : Fin 64), j = ix2 e d := ⟨j 0, j 1, eq_ix2 j⟩
  rw [cut1_apply _ hs hc e d, scaled_apply, stack_rows_one, lead_rows_apply, stack_col_apply, stack_edge_one,
    lead_edge_apply, mulf_apply, spread_apply]
  exact mul_comm _ _

end Join

end Cert.EdgeScale

end
-- ==== Proof.RegionValue.lean ====
/-
  What the idealized kernel's one region leaves in its output array, as a function of the two arrays it reads.

  The region runs on a 2 × 128 grid.  Point (r, b) fetches block (r, b, 0) of the stacked rows (shape [1, 8192, 64]
  out of [2, 1048576, 64]) and block (r, b, 0) of the stacked weight column ([1, 8192, 1] out of [2, 1048576, 1]),
  stores their tile product (EdgeScale.tile_apply) and writes it back as block (r, b, 0) of the output.  Since entry
  (u, p, q) of the tile is rows(0, p, q) · column(0, p, 0), and block coordinates are index × size + offset, the
  block written at a point is exactly that block of ONE whole-array function, EdgeScale.scaled of the two arrays;
  the 256 blocks tile the output, so after the run the output array IS that function.  All of it holds at any
  float instance: no arithmetic law is used.
-/
import proofs.«157475_j77163382440859_1_alg».proof.Proof.Gen.KernelIdeal.Frame
import proofs.«157475_j77163382440859_1_alg».proof.Proof.EdgeScale
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.EdgeScale
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

theorem off_zero : (![0, 0, 0] : Fin 3 → Nat) = fun _ => 0 := funext fun a => by fin_cases a <;> rfl

/-- The body's stored value at an index of the tile: rows(0, p, q) · column(0, p, 0). -/
theorem pay_apply (x0 : Vec F S1x8192x64 .f32) (x1 : Vec F S1x8192x1 .f32) (u : Fin 1) (p : Fin 8192) (q : Fin 64) :
    k0_pay1 x0 x1 (ix3 u p q) = FloatOps.mulf (x0 (ix3 (0 : Fin 1) p q)) (x1 (ix3 (0 : Fin 1) p (0 : Fin 1))) := by
  unfold k0_pay1
  exact tile_apply x0 x1 shapeCasts_S1x8192x64_S8192x64 shapeCasts_S1x8192x1_S8192x1 broadcasts_S8192x1_S8192x64
    shapeCasts_S8192x64_S1x8192x64 u p q

/-- A tile whose two inputs are read off arrays A and B through block embeddings that agree with the output block's
    embedding (rows: the same place; column: the same relation and edge, feature 0) is that block of scaled A B. -/
theorem tile_eq_block (A : S2x1048576x64.Idx → F .f32) (B : S2x1048576x1.Idx → F .f32)
    (x0 : Vec F S1x8192x64 .f32) (x1 : Vec F S1x8192x1 .f32)
    (emb0 emb2 : S1x8192x64.Idx → S2x1048576x64.Idx) (emb1 : S1x8192x1.Idx → S2x1048576x1.Idx)
    (h0 : ∀ y, x0 y = A (emb0 y)) (h1 : ∀ y, x1 y = B (emb1 y))
    (e02 : ∀ (u : Fin 1) (p : Fin 8192) (q : Fin 64), emb0 (ix3 (0 : Fin 1) p q) = emb2 (ix3 u p q))
    (e12 : ∀ (u : Fin 1) (p : Fin 8192) (q : Fin 64),
      emb1 (ix3 (0 : Fin 1) p (0 : Fin 1)) = ix3 (emb2 (ix3 u p q) 0) (emb2 (ix3 u p q) 1) (0 : Fin 1))
    (j : S1x8192x64.Idx) : k0_pay1 x0 x1 j = scaled A B (emb2 j) := by
  obtain ⟨u, p, q, rfl⟩ : ∃ (u : Fin 1) (p : Fin 8192) (q : Fin 64), j = ix3 u p q := ⟨j 0, j 1, j 2, eq_ix3 j⟩
  rw [pay_apply, h0, h1, e02 u p q, e12 u p q]
  rfl

/-- The printed index maps, decided over the 256 points: the three windows sit at the same block on the relation
    and edge axes, at block 0 on the last axis, and the block indices stay in range. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0
    ∧ win0_2.index t (2 : Fin 3) = 0
    ∧ win0_2.index t (0 : Fin 3) ≤ 1 ∧ win0_2.index t (1 : Fin 3) ≤ 127 :=
  (by decide +kernel : ∀ t : Fin grid0.N, _)

/-- Every (relation, edge block) is some point's. -/
theorem idx_onto : ∀ (q0 : Fin 2) (q1 : Fin 128), ∃ t : Fin cfg0.N, win0_2.index t = ![q0.val, q1.val, 0] :=
  (by decide +kernel : ∀ (q0 : Fin 2) (q1 : Fin 128), ∃ t : Fin grid0.N, win0_2.index t = ![q0.val, q1.val, 0])

/-- WHAT POINT t WRITES BACK is block t of scaled of the two arrays the region reads, as it finds them. -/
theorem flushed_eq (c : Dev nD) (t : Fin cfg0.N) :
    (dats m 0 c).flushed 2 t
      = ((cfg0.win 2).blk t).view.read (Elt F) (scaled (F := F) (V m c main_v16) (V m c main_v20)) := by
  show (cfg0.win 2).cut (grid0.coords t) ((dats m 0 c).after 2 t) = _
  rw [after0_2]
  unfold out0_2
  rw [View.canon_unit_zero off_zero]
  simp only [View.ld_unit_zero (S := S1x8192x64) off_zero, View.ld_unit_zero (S := S1x8192x1) off_zero]
  obtain ⟨a0, a1, a2, b0, b1, b2, c2, r0, r1⟩ := idx_facts t
  funext j
  refine tile_eq_block (F := F) (V m c main_v16) (V m c main_v20) (iblk m c 0 t) (iblk m c 1 t)
    ((cfg0.win 0).blk t).view.emb ((cfg0.win 2).blk t).view.emb ((cfg0.win 1).blk t).view.emb
    (fun y => rfl) (fun y => rfl) ?_ ?_ j
  · intro u p q
    have hu : u.val = 0 := by omega
    funext a; apply Fin.ext
    match a with
    | ⟨0, _⟩ => show win0_0.index t (0 : Fin 3) * 1 + 1 * 0 = win0_2.index t (0 : Fin 3) * 1 + 1 * u.val; omega
    | ⟨1, _⟩ => show win0_0.index t (1 : Fin 3) * 8192 + 1 * p.val = win0_2.index t (1 : Fin 3) * 8192 + 1 * p.val; omega
    | ⟨2, _⟩ => show win0_0.index t (2 : Fin 3) * 64 + 1 * q.val = win0_2.index t (2 : Fin 3) * 64 + 1 * q.val; omega
  · intro u p q
    have hu : u.val = 0 := by omega
    funext a; apply Fin.ext
    match a with
    | ⟨0, _⟩ => show win0_1.index t (0 : Fin 3) * 1 + 1 * 0 = win0_2.index t (0 : Fin 3) * 1 + 1 * u.val; omega
    | ⟨1, _⟩ => show win0_1.index t (1 : Fin 3) * 8192 + 1 * p.val = win0_2.index t (1 : Fin 3) * 8192 + 1 * p.val; omega
    | ⟨2, _⟩ => show win0_1.index t (2 : Fin 3) * 1 + 1 * 0 = 0; omega

/-- An index of the output array is in point t's block iff each coordinate is in the block's range on its axis. -/
theorem mem_blk (t : Fin cfg0.N) (i : S2x1048576x64.Idx) :
    i ∈ ((cfg0.win 2).blk t).view.set ↔ ∀ a : Fin 3, win0_2.index t a * S1x8192x64.size a ≤ (i a).val
      ∧ (i a).val < win0_2.index t a * S1x8192x64.size a + S1x8192x64.size a := by
  show i ∈ ((View.whole main_v21).slice (win0_2.rect t)).set ↔ _
  rw [View.set_slice_whole, Rect.mem_set_unit]
  exact Iff.rfl

/-- The 256 blocks tile the output: entry (r, e, d) lies in the block of the point at relation r, edge block e / 8192. -/
theorem cover (i : S2x1048576x64.Idx) :
    ∃ t : Fin cfg0.N, (cfg0.win 2).flush t = true ∧ i ∈ ((cfg0.win 2).blk t).view.set := by
  have hi0 : (i 0).val < 2 := (i 0).isLt
  have hi1 : (i 1).val < 1048576 := (i 1).isLt
  have hi2 : (i 2).val < 64 := (i 2).isLt
  obtain ⟨t, ht⟩ := idx_onto ⟨(i 0).val, hi0⟩ ⟨(i 1).val / 8192, by omega⟩
  have q0 : win0_2.index t (0 : Fin 3) = (i 0).val := congrFun ht 0
  have q1 : win0_2.index t (1 : Fin 3) = (i 1).val / 8192 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 8192 ≤ (i 1).val ∧ (i 1).val < win0_2.index t (1 : Fin 3) * 8192 + 8192
    omega
  | ⟨2, _⟩ =>
    show win0_2.index t (2 : Fin 3) * 64 ≤ (i 2).val ∧ (i 2).val < win0_2.index t (2 : Fin 3) * 64 + 64
    omega

/-- THE OUTPUT ARRAY AFTER THE RUN: scaled of the stacked rows and the stacked weight column as the region finds them. -/
theorem final (c : Dev nD) :
    (dats m 0 c).arrAt 2 cfg0.N = scaled (F := F) (V m c main_v16) (V m c main_v20) :=
  (dats m 0 c).arrAt_eq_of_cover 2 _ (fun t _ => flushed_eq m c t) cover

end Cert.KernelIdeal.RegionValue

end
-- ==== Proof.KernelRun.lean ====
/-
  The idealized kernel's run, read: both results as terms of the argument arrays.

  Before the region the host lines gather one feature row per edge (x[cols], the column indices wrapped into range
  by the usual "add the extent if negative"), give each relation's rows and weights a leading unit axis, stack the
  two relations, and make the stacked weights a column.  After the region they cut each relation back out of the
  product, drop the unit axis, and scatter-add the rows into a zero [65536, 64] array by the relation's row indices.
  With the region's output known (RegionValue.final) each result is therefore

      scatter-add(0, rows_r, cut_r (scaled (stacked gathered rows) (stacked weight column))),

  a term of the argument arrays alone; the argument arrays themselves end as they were launched.
-/
import proofs.«157475_j77163382440859_1_alg».proof.Proof.RegionValue
import Idealize.ShloMosaic.Lib.StableHlo.Run

set_option maxRecDepth 16384

noncomputable section

namespace Cert.KernelIdeal.RunValue

open Cert.KernelIdeal Cert.KernelIdeal.Gen Cert.KernelIdeal.RegionValue Cert.EdgeScale
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-! ## The host lines before the region -/

/-- Column indices wrapped into range (negative ones moved up by the extent 65536), as a column of start indices. -/
def startIdx (cols : IVec S1048576 32) : IVec S1048576x1 32 :=
  broadcastInDim S1048576x1 ![0] bcast_S1048576_S1048576x1_0
    (select (cmpi .slt cols (broadcastInDim S1048576 ![] bcast_S_S1048576 (constantI S_ 32 0#32)))
      (addi cols (broadcastInDim S1048576 ![] bcast_S_S1048576 (constantI S_ 32 65536#32))) cols)

/-- One feature row per edge: x[cols]. -/
def gathered (x : FVec F S65536x64 .f32) (cols : IVec S1048576 32) : FVec F S1048576x64 .f32 :=
  Host.gather gather_S65536x64_S1048576x1_S1048576x64_1_0_n_n_0_1_164 x (startIdx cols)

/-- The two relations' gathered rows, stacked: the region's first operand. -/
def stackedRows (c : Dev nD) : FVec F S2x1048576x64 .f32 :=
  concatenate S2x1048576x64 0
    [⟨S1x1048576x64, broadcastInDim S1x1048576x64 ![1, 2] bcast_S1048576x64_S1x1048576x64_1_2
        (gathered (m ((c : Thread nD τ).loc main_arg0)) (m ((c : Thread nD τ).loc main_arg3)))⟩,
     ⟨S1x1048576x64, broadcastInDim S1x1048576x64 ![1, 2] bcast_S1048576x64_S1x1048576x64_1_2
        (gathered (m ((c : Thread nD τ).loc main_arg1)) (m ((c : Thread nD τ).loc main_arg6)))⟩]
    concatenates_S1x1048576x64_S1x1048576x64_S2x1048576x64_d0

/-- The two relations' weights, stacked and made a column: the region's second operand. -/
def stackedCol (c : Dev nD) : FVec F S2x1048576x1 .f32 :=
  broadcastInDim S2x1048576x1 ![0, 1] bcast_S2x1048576_S2x1048576x1_0_1
    (concatenate S2x1048576 0
      [⟨S1x1048576, broadcastInDim S1x1048576 ![1] bcast_S1048576_S1x1048576_1 (m ((c : Thread nD τ).loc main_arg4))⟩,
       ⟨S1x1048576, broadcastInDim S1x1048576 ![1] bcast_S1048576_S1x1048576_1 (m ((c : Thread nD τ).loc main_arg7))⟩]
      concatenates_S1x1048576_S1x1048576_S2x1048576_d0)

set_option maxHeartbeats 2000000 in
/-- The region finds its first operand holding the stacked gathered rows. -/
theorem V_rows (c : Dev nD) : V m c main_v16 = stackedRows m c := by
  dsimp only [V, V0]
  simp only [hostOps0, List.flatten_cons, List.flatten_nil, List.append_nil, List.cons_append, List.nil_append]
  after_results_simp
  rfl

/-- and its second the stacked weight column. -/
theorem V_col (c : Dev nD) : V m c main_v20 = stackedCol m c := by
  dsimp only [V, V0]
  simp only [hostOps0, List.flatten_cons, List.flatten_nil, List.append_nil, List.cons_append, List.nil_append]
  after_results
  rfl

/-! ## The host lines after the region -/

/-- Relation r's scaled rows scattered into a zero array by that relation's row indices. -/
def scattered (rows : IVec S1048576 32) (upd : FVec F S1048576x64 .f32) : FVec F S65536x64 .f32 :=
  Host.scatterAdd scatter_S65536x64_S1048576x1_S1048576x64_1_0_0_1
    (broadcastInDim S65536x64 ![] bcast_S_S65536x64 (constant S_ .f32 0x00000000#32))
    (broadcastInDim S1048576x1 ![0] bcast_S1048576_S1048576x1_0 rows) upd

/-- Relation 0 cut out of the region's output, -/
def cut0 (X : FVec F S2x1048576x64 .f32) : FVec F S1048576x64 .f32 :=
  shapeCast S1048576x64 (extractStridedSlice S1x1048576x64 ![0, 0, 0] X slices_S2x1048576x64_S1x1048576x64_0_0_0)
    shapeCasts_S1x1048576x64_S1048576x64
/-- and relation 1. -/
def cut1 (X : FVec F S2x1048576x64 .f32) : FVec F S1048576x64 .f32 :=
  shapeCast S1048576x64 (extractStridedSlice S1x1048576x64 ![1, 0, 0] X slices_S2x1048576x64_S1x1048576x64_1_0_0)
    shapeCasts_S1x1048576x64_S1048576x64

/-- The first result after the tail: relation 0's rows of the region's output, scattered by main_arg2. -/
theorem tail_first (c : Dev nD) :
    Pipeline.afterTail₀ cfgs (dats m) 0 (V0 m) [hostOps1] c main_v26
      = scattered (m ((c : Thread nD τ).loc main_arg2)) (cut0 ((dats m 0 c).arrAt 2 cfg0.N)) := by
  unfold Pipeline.afterTail₀
  show StableHlo.after hostOps1 _ (Proc.devRef .tc main_v26) = _
  after_results
  have e21 : Pipeline.withArrays (cfgs 0).spec c (V0 m c) (fun w => (dats m 0 c).arrAt w (cfgs 0).N) (Proc.devRef .tc main_v21)
      = (dats m 0 c).arrAt 2 cfg0.N :=
    Pipeline.withArrays_arr spec0 launch0.win.arr_inj c _ _ 2
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e21, e2]
  rfl

/-- The second result after the tail: relation 1's rows of the region's output, scattered by main_arg5. -/
theorem tail_second (c : Dev nD) :
    Pipeline.afterTail₀ cfgs (dats m) 0 (V0 m) [hostOps1] c main_v31
      = scattered (m ((c : Thread nD τ).loc main_arg5)) (cut1 ((dats m 0 c).arrAt 2 cfg0.N)) := by
  unfold Pipeline.afterTail₀
  show StableHlo.after hostOps1 _ (Proc.devRef .tc main_v31) = _
  after_results
  have e21 : Pipeline.withArrays (cfgs 0).spec c (V0 m c) (fun w => (dats m 0 c).arrAt w (cfgs 0).N) (Proc.devRef .tc main_v21)
      = (dats m 0 c).arrAt 2 cfg0.N :=
    Pipeline.withArrays_arr spec0 launch0.win.arr_inj c _ _ 2
  have e5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  rw [e21, e5]
  rfl

/-! ## The run -/

/-- Every weakly fair execution of @main terminates; the two results hold the scatter-adds of the two relations cut
    out of scaled (stacked rows) (stacked column), and the eight argument arrays are as launched. -/
theorem run : θ_run defs (onTc (τ := τ) (main (F := F))) ⟨m, fun _ => 0, ρ⟩ fun r => ∀ c : Dev nD,
      r.2.mem ((c : Thread nD τ).loc main_v26)
        = scattered (m ((c : Thread nD τ).loc main_arg2)) (cut0 (scaled (F := F) (stackedRows m c) (stackedCol m c)))
      ∧ r.2.mem ((c : Thread nD τ).loc main_v31)
        = scattered (m ((c : Thread nD τ).loc main_arg5)) (cut1 (scaled (F := F) (stackedRows m c) (stackedCol m c)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨((h c).2 main_v26 (Pipeline.mem_restRefs_of main_v26 (by decide) (by decide))).trans
        ((tail_first m c).trans (by rw [final m c, V_rows, V_col])),
      ((h c).2 main_v31 (Pipeline.mem_restRefs_of main_v31 (by decide) (by decide))).trans
        ((tail_second m c).trans (by rw [final m c, V_rows, V_col])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

/-! ## At the ideal instance: each cut-out relation is weights ⊙ gathered rows -/

section AtIdeal
variable (mi : (ℓ : Loc nD τ sig) → Buf (Elt Ideal) ℓ)

/-- The weight column spread over the features: a shape fact the kernel's own lines never state. -/
theorem spread_ok : S1048576x1.BroadcastsInDim S1048576x64 (![0, 1] : Fin 2 → Fin S1048576x64.rank) := by decide

/-- A relation's weights, made a column and spread over the 64 features, times its gathered rows. -/
def weighted (w : FVec Ideal S1048576 .f32) (g : FVec Ideal S1048576x64 .f32) : FVec Ideal S1048576x64 .f32 :=
  mulf (broadcastInDim S1048576x64 ![0, 1] spread_ok (broadcastInDim S1048576x1 ![0] bcast_S1048576_S1048576x1_0 w)) g

/-- Relation 0 of the product is its weights times its gathered rows (EdgeScale.rel0_eq: commutativity of the
    extended reals' product, entry by entry). -/
theorem cut0_scaled (c : Dev nD) :
    cut0 (scaled (F := Ideal) (stackedRows mi c) (stackedCol mi c))
      = weighted (mi ((c : Thread nD τ).loc main_arg4))
          (gathered (mi ((c : Thread nD τ).loc main_arg0)) (mi ((c : Thread nD τ).loc main_arg3))) :=
  rel0_eq (gathered (mi ((c : Thread nD τ).loc main_arg0)) (mi ((c : Thread nD τ).loc main_arg3)))
    (gathered (mi ((c : Thread nD τ).loc main_arg1)) (mi ((c : Thread nD τ).loc main_arg6)))
    (mi ((c : Thread nD τ).loc main_arg4)) (mi ((c : Thread nD τ).loc main_arg7))
    bcast_S1048576x64_S1x1048576x64_1_2 concatenates_S1x1048576x64_S1x1048576x64_S2x1048576x64_d0
    bcast_S1048576_S1x1048576_1 concatenates_S1x1048576_S1x1048576_S2x1048576_d0 bcast_S2x1048576_S2x1048576x1_0_1
    slices_S2x1048576x64_S1x1048576x64_0_0_0 shapeCasts_S1x1048576x64_S1048576x64 bcast_S1048576_S1048576x1_0 spread_ok

/-- Relation 1 likewise. -/
theorem cut1_scaled (c : Dev nD) :
    cut1 (scaled (F := Ideal) (stackedRows mi c) (stackedCol mi c))
      = weighted (mi ((c : Thread nD τ).loc main_arg7))
          (gathered (mi ((c : Thread nD τ).loc main_arg1)) (mi ((c : Thread nD τ).loc main_arg6))) :=
  rel1_eq (gathered (mi ((c : Thread nD τ).loc main_arg0)) (mi ((c : Thread nD τ).loc main_arg3)))
    (gathered (mi ((c : Thread nD τ).loc main_arg1)) (mi ((c : Thread nD τ).loc main_arg6)))
    (mi ((c : Thread nD τ).loc main_arg4)) (mi ((c : Thread nD τ).loc main_arg7))
    bcast_S1048576x64_S1x1048576x64_1_2 concatenates_S1x1048576x64_S1x1048576x64_S2x1048576x64_d0
    bcast_S1048576_S1x1048576_1 concatenates_S1x1048576_S1x1048576_S2x1048576_d0 bcast_S2x1048576_S2x1048576x1_0_1
    slices_S2x1048576x64_S1x1048576x64_1_0_0 shapeCasts_S1x1048576x64_S1048576x64 bcast_S1048576_S1048576x1_0 spread_ok

end AtIdeal

end Cert.KernelIdeal.RunValue

end
-- ==== Proof.lean ====
/-
  A two-relation sparse product (COO SpMM), kernel against reference, over the extended reals.

  For relation r ∈ {0, 1} with 1,048,576 edges, weights w_r, row and column indices, and node features x_r of shape
  [65536, 64], both programs compute

      out_r[n, d] = Σ_{e : rows_r[e] = n}  w_r[e] · x_r[cols_r[e], d].

  Both gather x_r[cols_r] on the host with the same operation (negative indices wrapped by the extent) and both
  finish with the same scatter-add of the scaled rows into a zero array by rows_r.  They differ only in the middle.
  The reference multiplies the weight column, spread over the 64 features, by the gathered rows.  The kernel stacks
  the two relations' rows into [2, E, 64] and their weights into a [2, E, 1] column, runs one tiled region over a
  2 × 128 grid whose body stores  rows-tile · (column-tile broadcast over the features),  and cuts each relation back
  out.  Read at an index, the kernel's scaled row is g(e, d) · w(e) and the reference's is w(e) · g(e, d): equal by
  commutativity of the product of extended reals, which needs no finiteness, so the precondition is never opened.

  * EdgeScale   — the whole-array product, one tile at an index, the layout chain at an index, and the two relations
                  joined to the reference's form (commutativity).
  * RegionValue — what a grid point writes back is a block of that one function; the blocks tile the output.
  * KernelRun   — the host lines before and after the region; the kernel's run with both results as terms of the
                  arguments.
  Here: the three frames (the two kernels' from the generated frame run, the reference's from its generated run with
  the results dropped), the empty ledger, and the value claim: both runs end at the same two arrays.
-/
import proofs.«157475_j77163382440859_1_alg».proof.Defs
import proofs.«157475_j77163382440859_1_alg».proof.Proof.Gen.Kernel
import proofs.«157475_j77163382440859_1_alg».proof.Proof.Gen.Kernel.Skeleton
import proofs.«157475_j77163382440859_1_alg».proof.Proof.Gen.Kernel.Launch
import proofs.«157475_j77163382440859_1_alg».proof.Proof.Gen.Kernel.Points
import proofs.«157475_j77163382440859_1_alg».proof.Proof.Gen.Kernel.Frame
import proofs.«157475_j77163382440859_1_alg».proof.Proof.Gen.KernelIdeal
import proofs.«157475_j77163382440859_1_alg».proof.Proof.Gen.KernelIdeal.Skeleton
import proofs.«157475_j77163382440859_1_alg».proof.Proof.Gen.KernelIdeal.Launch
import proofs.«157475_j77163382440859_1_alg».proof.Proof.Gen.KernelIdeal.Points
import proofs.«157475_j77163382440859_1_alg».proof.Proof.Gen.KernelIdeal.Frame
import proofs.«157475_j77163382440859_1_alg».proof.Proof.Gen.ReferenceIdeal
import proofs.«157475_j77163382440859_1_alg».proof.Proof.Gen.Pre_finite_inputs
import proofs.«157475_j77163382440859_1_alg».proof.Proof.Gen.ReferenceIdeal.Run
import proofs.«157475_j77163382440859_1_alg».proof.Proof.KernelRun
import Idealize.ShloMosaic.Adequacy
import Idealize.ShloMosaic.Init

noncomputable section

namespace Cert.Proof

open Idealize.ShloMosaic Idealize.ShloMosaic.TcCoe Idealize.SL.Sem

/-! ## The frames and the ledger -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-! ## The value claim -/

section Value
open Cert.ReferenceIdeal Cert.ReferenceIdeal.Gen

/-- The reference's result for one relation — zero array, row indices as a column, the weight column spread over
    the features times the gathered rows, scatter-added — is the kernel's term for that relation: the same
    operations over the same shapes and literals. -/
theorem reference_term (x : FVec Ideal S65536x64 .f32) (rows cols : IVec S1048576 32) (w : FVec Ideal S1048576 .f32) :
    Host.scatterAdd scatter_S65536x64_S1048576x1_S1048576x64_1_0_0_1
        (broadcastInDim S65536x64 ![] bcast_S_S65536x64 (constant S_ .f32 0x00000000#32))
        (broadcastInDim S1048576x1 ![0] bcast_S1048576_S1048576x1_0 rows)
        (mulf (broadcastInDim S1048576x64 ![0, 1] bcast_S1048576x1_S1048576x64_0_1 (broadcastInDim S1048576x1 ![0] bcast_S1048576_S1048576x1_0 w))
          (Host.gather gather_S65536x64_S1048576x1_S1048576x64_1_0_n_n_0_1_164 x
            (broadcastInDim S1048576x1 ![0] bcast_S1048576_S1048576x1_0
              (select (cmpi .slt cols (broadcastInDim S1048576 ![] bcast_S_S1048576 (constantI S_ 32 0#32)))
                (addi cols (broadcastInDim S1048576 ![] bcast_S_S1048576 (constantI S_ 32 65536#32))) cols))))
      = Cert.KernelIdeal.RunValue.scattered (F := Ideal) rows
          (Cert.KernelIdeal.RunValue.weighted w (Cert.KernelIdeal.RunValue.gathered (F := Ideal) x cols)) :=
  rfl

end Value

/-- Both programs, run from memories that agree on the eight arguments, end with each relation's result at the
    scatter-add of (weights ⊙ gathered rows): the kernel by its run and EdgeScale's commutativity step, the reference
    by its generated run. -/
theorem algebraic : Cert.algebraic_KernelIdeal_ReferenceIdeal := by
  intro m ρ m' ρ' _ hagree
  refine ⟨fun c => Cert.KernelIdeal.RunValue.scattered (F := Ideal) (m ((c : Thread Cert.KernelIdeal.nD Cert.KernelIdeal.τ).loc Cert.KernelIdeal.main_arg2))
      (Cert.KernelIdeal.RunValue.weighted (m ((c : Thread Cert.KernelIdeal.nD Cert.KernelIdeal.τ).loc Cert.KernelIdeal.main_arg4))
        (Cert.KernelIdeal.RunValue.gathered (F := Ideal) (m ((c : Thread Cert.KernelIdeal.nD Cert.KernelIdeal.τ).loc Cert.KernelIdeal.main_arg0))
          (m ((c : Thread Cert.KernelIdeal.nD Cert.KernelIdeal.τ).loc Cert.KernelIdeal.main_arg3)))),
    fun c => Cert.KernelIdeal.RunValue.scattered (F := Ideal) (m ((c : Thread Cert.KernelIdeal.nD Cert.KernelIdeal.τ).loc Cert.KernelIdeal.main_arg5))
      (Cert.KernelIdeal.RunValue.weighted (m ((c : Thread Cert.KernelIdeal.nD Cert.KernelIdeal.τ).loc Cert.KernelIdeal.main_arg7))
        (Cert.KernelIdeal.RunValue.gathered (F := Ideal) (m ((c : Thread Cert.KernelIdeal.nD Cert.KernelIdeal.τ).loc Cert.KernelIdeal.main_arg1))
          (m ((c : Thread Cert.KernelIdeal.nD Cert.KernelIdeal.τ).loc Cert.KernelIdeal.main_arg6)))), ?_, ?_⟩
  · refine (θ_run Cert.KernelIdeal.defs _ _).mono (fun r h c => ?_) (Cert.KernelIdeal.RunValue.run (F := Ideal) m ρ)
    obtain ⟨h1, h2, hrest⟩ := h c
    exact ⟨h1.trans (congrArg _ (Cert.KernelIdeal.RunValue.cut0_scaled m c)),
      h2.trans (congrArg _ (Cert.KernelIdeal.RunValue.cut1_scaled m c)), hrest⟩
  · refine (θ_run Cert.ReferenceIdeal.defs _ _).mono (fun r h c => ?_) (Cert.ReferenceIdeal.Value.run (F := Ideal) m' ρ')
    obtain ⟨h1, h2, hrest⟩ := h c
    obtain ⟨a0, a1, a2, a3, a4, a5, a6, a7⟩ := hagree c
    refine ⟨h1.trans ?_, h2.trans ?_, hrest⟩
    · rw [a0, a2, a3, a4]
      exact reference_term _ _ _ _
    · rw [a1, a5, a6, a7]
      exact reference_term _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
